-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x1 : S_.BroadcastsInDim S1600000x1 (![] : Fin 0 → Fin S1600000x1.rank)
  reducesTo_S1600000x1_S_d0_1 : S1600000x1.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S1600000 .f32) (main_arg3 : FVec F S1600000x1 .f32) (main_arg4 : FVec F S1x64 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x1 .f32 := Host.absf main_arg3
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S16000x1 : Shape := ⟨2, ![16000, 1]⟩
abbrev S16000x64 : Shape := ⟨2, ![16000, 64]⟩
abbrev S16000 : Shape := ⟨1, ![16000]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 46
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x1, .f32⟩
  | .hbm, ⟨4, _⟩ => ⟨S1x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1600000x1, .f32⟩
  | .hbm, ⟨21, _⟩ => ⟨S1x64, .f32⟩
  | .hbm, ⟨22, _⟩ => ⟨S1x64, .f32⟩
  | .hbm, ⟨23, _⟩ => ⟨S1600000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S16000x1, .f32⟩
  | .local _ .vmem, ⟨1, _⟩ => ⟨S16000x1, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S16000x1, .f32⟩
  | .local _ .vmem, ⟨7, _⟩ => ⟨S16000x1, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000_S1600000x1 : S1600000.ShapeCasts S1600000x1
  shapeCasts_S64_S1x64 : S64.ShapeCasts S1x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S16000x1_S16000x64 : S16000x1.Broadcasts S16000x64
  broadcasts_S1x64_S16000x64 : S1x64.Broadcasts S16000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S16000x64_S16000 : S16000x64.Reduces [1] S16000
  shapeCasts_S16000_S16000x1 : S16000.ShapeCasts S16000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S16000x64_S64x64_S16000x64_1_0_0_1_n_n_wf : DotDims.WF S16000x64 S64x64 S16000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x1.size a ≤ S1600000x1.size a
  hwx0_0 : ∀ i : grid0.Coords, EltTy.bits .f32 = 32 ∨ (Rect.block (s := S1600000x1) S16000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x1.size a ≤ S1600000x1.size a
  hwx0_5 : ∀ i : grid0.Coords, EltTy.bits .f32 = 32 ∨ (Rect.block (s := S1600000x1) S16000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S16000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x64 : Shape := ⟨2, ![1600000, 64]⟩
abbrev S1600000x128 : Shape := ⟨2, ![1600000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x1, .f32⟩
  | .hbm, ⟨4, _⟩ => ⟨S1x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S1600000, .f32⟩
  | .hbm, ⟨23, _⟩ => ⟨S_, .f32⟩
  | .hbm, ⟨24, _⟩ => ⟨S1600000, .f32⟩
  | .hbm, ⟨25, _⟩ => ⟨S1600000, .f32⟩
  | .hbm, ⟨26, _⟩ => ⟨S1600000x1, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S1600000, .f32⟩
  | .hbm, ⟨38, _⟩ => ⟨S1600000, .f32⟩
  | .hbm, ⟨39, _⟩ => ⟨S_, .f32⟩
  | .hbm, ⟨40, _⟩ => ⟨S1600000, .f32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S1600000, .f32⟩
  | .hbm, ⟨48, _⟩ => ⟨S1600000, .f32⟩
  | .hbm, ⟨49, _⟩ => ⟨S_, .f32⟩
  | .hbm, ⟨50, _⟩ => ⟨S1600000, .f32⟩
  | .hbm, ⟨51, _⟩ => ⟨S1600000, .i1⟩
  | .hbm, ⟨52, _⟩ => ⟨S_, .f32⟩
  | .hbm, ⟨53, _⟩ => ⟨S_, .f32⟩
  | .hbm, ⟨54, _⟩ => ⟨S1600000, .f32⟩
  | .hbm, ⟨55, _⟩ => ⟨S1600000, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S1600000, .f32⟩
  | .hbm, ⟨61, _⟩ => ⟨S1600000x1, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S1600000x128, .f32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .i1⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_c : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_10 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  reducesTo_S1600000x64_S1600000_d1 : S1600000x64.ReducesTo [1] S1600000
  h_S_ : 0 < S_.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  dot_S1600000x1_S1x64_S1600000x64_1_0_0_1_n_n_wf : DotDims.WF S1600000x1 S1x64 S1600000x64 [1] [0] [0] [1] [] []
  dot_S1600000x64_S64x64_S1600000x64_1_0_0_1_n_n_wf : DotDims.WF S1600000x64 S64x64 S1600000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KHost.lean ====
/-
  What the two kernels find in their operands, read back through the host operations of the idealized kernel's @main.
  Before the first kernel the host only reshapes: the edge lengths to a column, the two filter biases to rows. Between
  the kernels it gathers each edge's source row of the node features, scales it by the edge's filter sum and scatter-adds
  the rows into the target nodes (`aggregate`: the first kernel's output enters only here), and reshapes six parameter
  vectors to rows.
-/
import proofs.«108108_j47974784696341_1_alg».proof.Proof.Gen.KernelIdeal.Frame
import Idealize.ShloMosaic.Lib.StableHlo.Run

set_option maxRecDepth 16384

noncomputable section

namespace Cert.KernelIdeal.HostSide

open Cert.KernelIdeal Idealize.ShloMosaic Idealize.ShloMosaic.TcCoe Idealize.SL.Sem Idealize.ShloMosaic.StableHlo
open Cert.KernelIdeal.Gen (W0 W1 W2 W3 W4 V1 V2 V3 V4 hostOps0 hostOps1 dat0 dat1 W2_arr W2_of_ne W4_arr)

variable {F : FTy → Type} [FloatOps F]

/-- The target column of the edge list, negative entries wrapped by the number of nodes, as the gather's start indices. -/
def sourceIdx (ei : (⟨S2x1600000, .i32⟩ : BufTy).Contents (Elt F)) : (⟨S1600000x1, .i32⟩ : BufTy).Contents (Elt F) :=
  broadcastInDim S1600000x1 ![0] Gen.bcast_S1600000_S1600000x1_0
    (select
      (cmpi .slt (shapeCast _ (extractStridedSlice S1x1600000 ![1, 0] ei Gen.slices_S2x1600000_S1x1600000_1_0) Gen.shapeCasts_S1x1600000_S1600000)
        (broadcastInDim S1600000 ![] Gen.bcast_S_S1600000 (constantI S_ 32 0#32)))
      (addi (shapeCast _ (extractStridedSlice S1x1600000 ![1, 0] ei Gen.slices_S2x1600000_S1x1600000_1_0) Gen.shapeCasts_S1x1600000_S1600000)
        (broadcastInDim S1600000 ![] Gen.bcast_S_S1600000 (constantI S_ 32 100000#32)))
      (shapeCast _ (extractStridedSlice S1x1600000 ![1, 0] ei Gen.slices_S2x1600000_S1x1600000_1_0) Gen.shapeCasts_S1x1600000_S1600000))

/-- The aggregation between the two kernels as ONE function of the node features `x`, the edge list `ei` and the
    per-edge filter sums `fs`: gather the source rows, scale each by its edge's sum, scatter-add into the target rows
    of a zero array. Both programs apply exactly these host operations; nothing here opens the gather or the scatter. -/
def aggregate (x : (⟨S100000x128, .f32⟩ : BufTy).Contents (Elt F)) (ei : (⟨S2x1600000, .i32⟩ : BufTy).Contents (Elt F))
    (fs : (⟨S1600000x1, .f32⟩ : BufTy).Contents (Elt F)) : (⟨S100000x128, .f32⟩ : BufTy).Contents (Elt F) :=
  Host.scatterAdd scatter_S100000x128_S1600000x1_S1600000x128_1_0_0_1
    (broadcastInDim S100000x128 ![] Gen.bcast_S_S100000x128 (constant S_ .f32 0x00000000#32))
    (broadcastInDim S1600000x1 ![0] Gen.bcast_S1600000_S1600000x1_0
      (shapeCast _ (extractStridedSlice S1x1600000 ![0, 0] ei Gen.slices_S2x1600000_S1x1600000_0_0) Gen.shapeCasts_S1x1600000_S1600000))
    (mulf (Host.gather gather_S100000x128_S1600000x1_S1600000x128_1_0_n_n_0_1_1128 x (sourceIdx ei))
      (broadcastInDim S1600000x128 ![0, 1] Gen.bcast_S1600000x1_S1600000x128_0_1 fs))

variable (m : (ℓ : Loc nD τ sig) → Buf (Elt F) ℓ) (ρ : Dev nD → PrngReg)

/-! ## The first kernel's operands (after the first stretch of host operations) -/

theorem entry0_v4 (c : Dev nD) : V1 m ρ c main_v4 = shapeCast _ (m ((c : Thread nD τ).loc main_arg2)) Gen.shapeCasts_S1600000_S1600000x1 := by
  show StableHlo.after hostOps0 (W0 m ρ c) (Proc.devRef .tc main_v4) = _
  after_results
  rfl
theorem entry0_arg4 (c : Dev nD) : V1 m ρ c main_arg4 = m ((c : Thread nD τ).loc main_arg4) := by
  show StableHlo.after hostOps0 (W0 m ρ c) (Proc.devRef .tc main_arg4) = _
  after_results
theorem entry0_v5 (c : Dev nD) : V1 m ρ c main_v5 = shapeCast _ (m ((c : Thread nD τ).loc main_arg5)) Gen.shapeCasts_S64_S1x64 := by
  show StableHlo.after hostOps0 (W0 m ρ c) (Proc.devRef .tc main_v5) = _
  after_results
  rfl
theorem entry0_arg6 (c : Dev nD) : V1 m ρ c main_arg6 = m ((c : Thread nD τ).loc main_arg6) := by
  show StableHlo.after hostOps0 (W0 m ρ c) (Proc.devRef .tc main_arg6) = _
  after_results
theorem entry0_v6 (c : Dev nD) : V1 m ρ c main_v6 = shapeCast _ (m ((c : Thread nD τ).loc main_arg7)) Gen.shapeCasts_S64_S1x64 := by
  show StableHlo.after hostOps0 (W0 m ρ c) (Proc.devRef .tc main_v6) = _
  after_results
  rfl

/-! ## What the first kernel's exit leaves in the buffers the second stretch reads -/

theorem exit0_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
theorem exit0_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
theorem exit0_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
theorem exit0_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
theorem exit0_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results
theorem exit0_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results
theorem exit0_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results
theorem exit0_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results
theorem exit0_arg15 (c : Dev nD) : W2 m ρ c (Proc.devRef .tc main_arg15) = m ((c : Thread nD τ).loc main_arg15) := by
  rw [W2_of_ne m ρ c main_arg15 (by decide)]
  show StableHlo.after hostOps0 (W0 m ρ c) (Proc.devRef .tc main_arg15) = _
  after_results
theorem exit0_v1 (c : Dev nD) : W2 m ρ c (Proc.devRef .tc main_v1)
    = shapeCast _ (extractStridedSlice S1x1600000 ![0, 0] (m ((c : Thread nD τ).loc main_arg1)) Gen.slices_S2x1600000_S1x1600000_0_0) Gen.shapeCasts_S1x1600000_S1600000 := by
  rw [W2_of_ne m ρ c main_v1 (by decide)]
  show StableHlo.after hostOps0 (W0 m ρ c) (Proc.devRef .tc main_v1) = _
  after_results
  rfl
theorem exit0_v3 (c : Dev nD) : W2 m ρ c (Proc.devRef .tc main_v3)
    = shapeCast _ (extractStridedSlice S1x1600000 ![1, 0] (m ((c : Thread nD τ).loc main_arg1)) Gen.slices_S2x1600000_S1x1600000_1_0) Gen.shapeCasts_S1x1600000_S1600000 := by
  rw [W2_of_ne m ρ c main_v3 (by decide)]
  show StableHlo.after hostOps0 (W0 m ρ c) (Proc.devRef .tc main_v3) = _
  after_results
  rfl
/-- The first kernel's output array after its run. -/
theorem exit0_v7 (c : Dev nD) : W2 m ρ c (Proc.devRef .tc main_v7) = (dat0 (V1 m ρ) c).arrAt 5 cfg0.N :=
  W2_arr m ρ c 5

/-! ## The second kernel's operands (after the second stretch of host operations) -/

set_option maxHeartbeats 4000000 in
/-- The aggregated messages the second kernel reads: `aggregate` of the node features, the edge list and the first
    kernel's output array. -/
theorem entry1_v19 (c : Dev nD) : V3 m ρ c main_v19
    = aggregate (m ((c : Thread nD τ).loc main_arg0)) (m ((c : Thread nD τ).loc main_arg1)) ((dat0 (V1 m ρ) c).arrAt 5 cfg0.N) := by
  show StableHlo.after hostOps1 (W2 m ρ c) (Proc.devRef .tc main_v19) = _
  after_results_simp
  rw [exit0_arg0, exit0_v1, exit0_v3, exit0_v7]
  rfl
theorem entry1_arg8 (c : Dev nD) : V3 m ρ c main_arg8 = m ((c : Thread nD τ).loc main_arg8) := by
  show StableHlo.after hostOps1 (W2 m ρ c) (Proc.devRef .tc main_arg8) = _
  after_results
  rw [exit0_arg8]
theorem entry1_arg10 (c : Dev nD) : V3 m ρ c main_arg10 = m ((c : Thread nD τ).loc main_arg10) := by
  show StableHlo.after hostOps1 (W2 m ρ c) (Proc.devRef .tc main_arg10) = _
  after_results
  rw [exit0_arg10]
theorem entry1_v20 (c : Dev nD) : V3 m ρ c main_v20 = shapeCast _ (m ((c : Thread nD τ).loc main_arg9)) Gen.shapeCasts_S128_S1x128 := by
  show StableHlo.after hostOps1 (W2 m ρ c) (Proc.devRef .tc main_v20) = _
  after_results
  rw [exit0_arg9]
  rfl
theorem entry1_v21 (c : Dev nD) : V3 m ρ c main_v21 = shapeCast _ (m ((c : Thread nD τ).loc main_arg11)) Gen.shapeCasts_S128_S1x128 := by
  show StableHlo.after hostOps1 (W2 m ρ c) (Proc.devRef .tc main_v21) = _
  after_results
  rw [exit0_arg11]
  rfl
theorem entry1_v22 (c : Dev nD) : V3 m ρ c main_v22 = shapeCast _ (m ((c : Thread nD τ).loc main_arg12)) Gen.shapeCasts_S128_S1x128 := by
  show StableHlo.after hostOps1 (W2 m ρ c) (Proc.devRef .tc main_v22) = _
  after_results
  rw [exit0_arg12]
  rfl
theorem entry1_v23 (c : Dev nD) : V3 m ρ c main_v23 = shapeCast _ (m ((c : Thread nD τ).loc main_arg13)) Gen.shapeCasts_S128_S1x128 := by
  show StableHlo.after hostOps1 (W2 m ρ c) (Proc.devRef .tc main_v23) = _
  after_results
  rw [exit0_arg13]
  rfl
theorem entry1_v24 (c : Dev nD) : V3 m ρ c main_v24 = shapeCast _ (m ((c : Thread nD τ).loc main_arg14)) Gen.shapeCasts_S128_S1x128 := by
  show StableHlo.after hostOps1 (W2 m ρ c) (Proc.devRef .tc main_v24) = _
  after_results
  rw [exit0_arg14]
  rfl
theorem entry1_v25 (c : Dev nD) : V3 m ρ c main_v25 = shapeCast _ (m ((c : Thread nD τ).loc main_arg15)) Gen.shapeCasts_S128_S1x128 := by
  show StableHlo.after hostOps1 (W2 m ρ c) (Proc.devRef .tc main_v25) = _
  after_results
  rw [exit0_arg15]
  rfl

/-- The result buffer at the last boundary is the second kernel's output array after its run. -/
theorem exit1_v26 (c : Dev nD) : W4 m ρ c (Proc.devRef .tc main_v26) = (dat1 (V3 m ρ) c).arrAt 9 cfg1.N :=
  W4_arr m ρ c 9

end Cert.KernelIdeal.HostSide

end
-- ==== Proof.Spec.lean ====
/-
  The mathematics both programs compute, stated once over the extended reals and over plain index types.

  Per edge `e` with length `a`: the filter network `tanh((a/4 - 1) * Wf1 + bf1) @ Wf2 + bf2` (64 filters), each
  filter scaled by the cosine cutoff `[a ≤ 8] * (cos(a * c) + 1) / 2` and the 64 products summed (`edgeFilter`).
  Per node row and output column `j`: two dense layers with a softplus between them, then the inference-mode
  batch normalisation `gamma * (y - mean) * rsqrt(var + eps) + beta` (`nodeUpdate`).
  The arrays `filterSums` and `nodeRows` apply these row by row. The literals stay the words the programs print.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The cosine cutoff of an edge of length `a` at angular scale `c`: `(cos (a * c) + 1) / 2` up to length 8, zero beyond. -/
def cutoff (a c : EReal) : EReal :=
  Scalar.select (Ideal.cmp .ole a (Ideal.ofBits .f32 0x41000000#32))
    (Ideal.ofBits .f32 0x3F000000#32 * (Ideal.cos (a * c) + Ideal.ofBits .f32 0x3F800000#32))
    (Ideal.ofBits .f32 0x00000000#32)

/-- One edge: the hidden layer on the rescaled length, the second layer's 64 filters, each times the cutoff, summed. -/
def edgeFilter (a : EReal) (wf1 bf1 : Fin 64 → EReal) (wf2 : Fin 64 → Fin 64 → EReal) (bf2 : Fin 64 → EReal) : EReal :=
  ∑ f : Fin 64,
    ((∑ k : Fin 64,
        Ideal.tanh ((a * Ideal.ofBits .f32 0x3E800000#32 - Ideal.ofBits .f32 0x3F800000#32) * wf1 k + bf1 k) * wf2 k f)
      + bf2 f) * cutoff a (Ideal.ofBits .f32 0x3EC90FDB#32)

/-- Softplus as both programs spell it: `max h 0 + log1p (exp (-|h - 0|))`, under the test `h - 0 ≠ h - 0` that no
    extended real passes. -/
def softplus (h : EReal) : EReal :=
  Scalar.select (Ideal.cmp .one (h - Ideal.ofBits .f32 0x00000000#32) (h - Ideal.ofBits .f32 0x00000000#32))
    (h + Ideal.ofBits .f32 0x00000000#32)
    (max h (Ideal.ofBits .f32 0x00000000#32)
      + Ideal.log1p (Ideal.exp (Ideal.ofBits .f32 0x00000000#32
          - FloatOps.absf (F := Ideal) (φ := .f32) (h - Ideal.ofBits .f32 0x00000000#32))))

/-- One entry of the updated node features: from the node's aggregated row, column `j`. -/
def nodeUpdate (row : Fin 128 → EReal) (wi1 : Fin 128 → Fin 128 → EReal) (bi1 : Fin 128 → EReal)
    (wi2 : Fin 128 → Fin 128 → EReal) (bi2 gamma beta mean var : Fin 128 → EReal) (j : Fin 128) : EReal :=
  gamma j * (((∑ k : Fin 128, softplus ((∑ l : Fin 128, row l * wi1 l k) + bi1 k) * wi2 k j) + bi2 j) - mean j)
    * Ideal.rsqrt (var j + Ideal.ofBits .f32 0x3A83126F#32) + beta j

/-- The per-edge filter sums as an array of shape [1600000, 1], from the arguments as @main receives them. -/
def filterSums (ew : (⟨1, ![1600000]⟩ : Shape).Idx → EReal) (wf1 : (⟨2, ![1, 64]⟩ : Shape).Idx → EReal)
    (bf1 : (⟨1, ![64]⟩ : Shape).Idx → EReal) (wf2 : (⟨2, ![64, 64]⟩ : Shape).Idx → EReal)
    (bf2 : (⟨1, ![64]⟩ : Shape).Idx → EReal) : (⟨2, ![1600000, 1]⟩ : Shape).Idx → EReal :=
  fun i => edgeFilter (ew (ix1 (n := 1600000) (i 0))) (fun k => wf1 (ix2 (0 : Fin 1) k)) (fun k => bf1 (ix1 k))
    (fun k f => wf2 (ix2 k f)) (fun f => bf2 (ix1 f))

/-- The updated node features as an array of shape [100000, 128], from the aggregated messages and the arguments. -/
def nodeRows (agg : (⟨2, ![100000, 128]⟩ : Shape).Idx → EReal) (wi1 : (⟨2, ![128, 128]⟩ : Shape).Idx → EReal)
    (bi1 : (⟨1, ![128]⟩ : Shape).Idx → EReal) (wi2 : (⟨2, ![128, 128]⟩ : Shape).Idx → EReal)
    (bi2 gamma beta mean var : (⟨1, ![128]⟩ : Shape).Idx → EReal) : (⟨2, ![100000, 128]⟩ : Shape).Idx → EReal :=
  fun i => nodeUpdate (fun l => agg (ix2 (n0 := 100000) (i 0) l)) (fun l k => wi1 (ix2 l k)) (fun k => bi1 (ix1 k))
    (fun k j => wi2 (ix2 k j)) (fun j => bi2 (ix1 j)) (fun j => gamma (ix1 j)) (fun j => beta (ix1 j))
    (fun j => mean (ix1 j)) (fun j => var (ix1 j)) (i 1)

/-- `filterSums` at row `e`. -/
theorem filterSums_apply (ew : (⟨1, ![1600000]⟩ : Shape).Idx → EReal) (wf1 : (⟨2, ![1, 64]⟩ : Shape).Idx → EReal)
    (bf1 : (⟨1, ![64]⟩ : Shape).Idx → EReal) (wf2 : (⟨2, ![64, 64]⟩ : Shape).Idx → EReal)
    (bf2 : (⟨1, ![64]⟩ : Shape).Idx → EReal) (e : Fin 1600000) (q : Fin 1) :
    filterSums ew wf1 bf1 wf2 bf2 (ix2 e q)
      = edgeFilter (ew (ix1 e)) (fun k => wf1 (ix2 (0 : Fin 1) k)) (fun k => bf1 (ix1 k)) (fun k f => wf2 (ix2 k f)) (fun f => bf2 (ix1 f)) := rfl

/-- `nodeRows` at row `n`, column `j`. -/
theorem nodeRows_apply (agg : (⟨2, ![100000, 128]⟩ : Shape).Idx → EReal) (wi1 : (⟨2, ![128, 128]⟩ : Shape).Idx → EReal)
    (bi1 : (⟨1, ![128]⟩ : Shape).Idx → EReal) (wi2 : (⟨2, ![128, 128]⟩ : Shape).Idx → EReal)
    (bi2 gamma beta mean var : (⟨1, ![128]⟩ : Shape).Idx → EReal) (n : Fin 100000) (j : Fin 128) :
    nodeRows agg wi1 bi1 wi2 bi2 gamma beta mean var (ix2 n j)
      = nodeUpdate (fun l => agg (ix2 n l)) (fun l k => wi1 (ix2 l k)) (fun k => bi1 (ix1 k))
          (fun k j => wi2 (ix2 k j)) (fun j => bi2 (ix1 j)) (fun j => gamma (ix1 j)) (fun j => beta (ix1 j))
          (fun j => mean (ix1 j)) (fun j => var (ix1 j)) j := rfl

/-! ## The small facts that join the two spellings -/

/-- A float comparison at the extended reals is the order's comparison. -/
theorem cmpf_eq (p : CmpFPredicate) (x y : EReal) : FloatOps.cmpf (F := Ideal) (φ := .f32) p x y = Ideal.cmp p x y := rfl

/-- With no NaN among the extended reals, "unordered or different" is "different". -/
theorem cmp_une (x y : EReal) : Ideal.cmp .une x y = Ideal.cmp .one x y := rfl

/-- `+0.0` denotes `0`. -/
theorem ofBits_zero : Ideal.ofBits .f32 0x00000000#32 = 0 := Ideal.ofBits_zero_f32

/-- `8.0` denotes the real `8`. -/
theorem ofBits_eight : Ideal.ofBits .f32 0x41000000#32 = ((8 : ℝ) : EReal) := by
  simp [Ideal.ofBits, Ideal.ieee, -EReal.coe_mul]; norm_num

/-- The kernel's angular scale is the reference's `π` word divided by `8`, exactly: dividing a float by a power of two
    only lowers its exponent. -/
theorem pi_eighth : Ideal.ofBits .f32 0x3EC90FDB#32 = Ideal.ofBits .f32 0x40490FDB#32 * ((1 / 8 : ℝ) : EReal) := by
  simp [Ideal.ofBits, Ideal.ieee, -EReal.coe_mul]
  rw [← EReal.coe_mul]
  norm_num

/-- The reference's `(a * π) / 8` is the kernel's `a * (π / 8)` on every extended real: multiplication is associative. -/
theorem angle_eq (a : EReal) :
    Ideal.div (a * Ideal.ofBits .f32 0x40490FDB#32) (Ideal.ofBits .f32 0x41000000#32) = a * Ideal.ofBits .f32 0x3EC90FDB#32 := by
  rw [ofBits_eight, Ideal.div_coe (by norm_num : (8 : ℝ) ≠ 0), pi_eighth, mul_assoc]

/-- Subtracting from zero is negation on the extended reals. -/
theorem zero_sub' (x : EReal) : Ideal.ofBits .f32 0x00000000#32 - x = -x := by
  rw [ofBits_zero, zero_sub]

end Cert.Spec

end
-- ==== Proof.KPay0.lean ====
/-
  The first kernel's body at one element. Its one store writes, at row `p` of the block, the 64 filters of that edge
  (a hidden layer of 64 units on the rescaled length, a matrix product into a zero accumulator, a bias), each times the
  edge's cosine cutoff, summed over the filter axis: `Spec.edgeFilter` of the block's entry at row `p` and of the four
  weight blocks.
-/
import proofs.«108108_j47974784696341_1_alg».proof.Proof.Gen.KernelIdeal.Skeleton
import proofs.«108108_j47974784696341_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Filter

open Cert.KernelIdeal Cert.KernelIdeal.Gen Idealize.ShloMosaic Idealize.ShloMosaic.ValueIdx

/-! ## The matrix product's operand indices: row `p` of the left operand against column `f` of the right -/

theorem lhs_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The product into a zero accumulator at `(p, f)`: the sum over the 64 hidden units. -/
theorem matmul_apply {φ₁ φ₂ : FTy} (l : FVec Ideal S16000x64 φ₁) (r : FVec Ideal S64x64 φ₂) (p : Fin 16000) (f : Fin 64) :
    matmul dot_S16000x64_S64x64_S16000x64_1_0_0_1_n_n none l r (constant S16000x64 .f32 0x00000000#32) (ix2 p f)
      = ∑ k : Fin 64, l (ix2 p k) * r (ix2 k f) := by
  simp only [matmul]
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p f) ((contrEquiv1 dot_S16000x64_S64x64_S16000x64_1_0_0_1_n_n 64 rfl rfl).symm k) = ix2 p k := funext fun a => Fin.ext (by
    match a with
    | ⟨0, _⟩ => exact lhs_0 _ _
    | ⟨1, _⟩ => exact (lhs_1 _ _).trans hk)
  have er : dot_S16000x64_S64x64_S16000x64_1_0_0_1_n_n.rhsIdx (ix2 p f) ((contrEquiv1 dot_S16000x64_S64x64_S16000x64_1_0_0_1_n_n 64 rfl rfl).symm k) = ix2 k f := funext fun a => Fin.ext (by
    match a with
    | ⟨0, _⟩ => exact (rhs_0 _ _).trans hk
    | ⟨1, _⟩ => exact rhs_1 _ _)
  rw [el, er]

/-! ## The layout operations of the body, each read at `(p, f)` -/

/-- A column [16000, 1] spread over 64 lanes reads its row. -/
theorem spreadCol_apply {α : Type} (v : S16000x1.Idx → α) (h : S16000x1.Broadcasts S16000x64) (p : Fin 16000) (f : Fin 64) :
    broadcastTo S16000x64 v h (ix2 p f) = v (ix2 p (0 : Fin 1)) :=
  broadcastTo_apply v h (ix2 p f) (ix2 p (0 : Fin 1)) (fun a => by
    match a with
    | ⟨0, _⟩ => show p.val = if (16000 : Nat) = 1 then 0 else p.val; rw [if_neg (by decide)]
    | ⟨1, _⟩ => show (0 : Nat) = if (1 : Nat) = 1 then 0 else f.val; rw [if_pos rfl])

/-- A row [1, 64] spread over 16000 rows reads its lane. -/
theorem spreadRow_apply {α : Type} (v : S1x64.Idx → α) (h : S1x64.Broadcasts S16000x64) (p : Fin 16000) (f : Fin 64) :
    broadcastTo S16000x64 v h (ix2 p f) = v (ix2 (0 : Fin 1) f) :=
  broadcastTo_apply v h (ix2 p f) (ix2 (0 : Fin 1) f) (fun a => by
    match a with
    | ⟨0, _⟩ => show (0 : Nat) = if (1 : Nat) = 1 then 0 else p.val; rw [if_pos rfl]
    | ⟨1, _⟩ => show f.val = if (64 : Nat) = 1 then 0 else f.val; rw [if_neg (by decide)])

/-- The 16000 row sums recast as a column [16000, 1]. -/
theorem asCol_apply {α : Type} (v : S16000.Idx → α) (h : S16000.ShapeCasts S16000x1) (p : Fin 16000) (q : Fin 1) :
    shapeCast S16000x1 v h (ix2 p q) = v (ix1 p) :=
  shapeCast_apply v h (ix2 p q) (ix1 p) (by
    rewrite [Shape.rowMajor_val_two, Shape.rowMajor_val_one]
    have hq : q.val = 0 := by have := q.isLt; omega
    show p.val = p.val * 1 + q.val
    omega)

/-- The sum over the filter axis at row `p`. -/
theorem rowSum_apply (v : FVec Ideal S16000x64 .f32) (h : S16000x64.Reduces [1] S16000) (hφ) (hacc) (p : Fin 16000) :
    multiReduction .add [1] S16000 v 0x00000000#32 h hφ hacc (ix1 p) = ∑ f : Fin 64, v (ix2 p f) := by
  rw [Ideal.multiReduction_add_single]
  refine Finset.sum_congr rfl fun f _ => ?_
  exact congrArg v (funext fun a => Fin.ext (by match a with | ⟨0, _⟩ => rfl | ⟨1, _⟩ => rfl))

/-- The hyperbolic tangent and the cosine of a vector, read at an index. -/
theorem tanh_apply {s : Shape} (v : FVec Ideal s .f32) (i : s.Idx) : tanh v i = Ideal.tanh (v i) := rfl
theorem cos_apply {s : Shape} (v : FVec Ideal s .f32) (i : s.Idx) : cos v i = Ideal.cos (v i) := rfl

/-! ## The body's stored value at row `p` -/

/-- The stored column at row `p` is `Spec.edgeFilter` of the edge length at row `p` and the weight blocks' entries. -/
theorem pay_apply (x0 : Vec Ideal S16000x1 .f32) (x1 x2 : Vec Ideal S1x64 .f32) (x3 : Vec Ideal S64x64 .f32) (x4 : Vec Ideal S1x64 .f32)
    (p : Fin 16000) (q : Fin 1) :
    k0_pay1 x0 x1 x2 x3 x4 (ix2 p q)
      = Spec.edgeFilter (x0 (ix2 p (0 : Fin 1))) (fun k => x1 (ix2 (0 : Fin 1) k)) (fun k => x2 (ix2 (0 : Fin 1) k))
          (fun k f => x3 (ix2 k f)) (fun f => x4 (ix2 (0 : Fin 1) f)) := by
  unfold k0_pay1 Spec.edgeFilter Spec.cutoff
  refine (asCol_apply _ _ p q).trans ?_
  refine (rowSum_apply _ _ _ _ p).trans ?_
  refine Finset.sum_congr rfl fun f _ => ?_
  rw [mulf_apply, addf_apply, matmul_apply, spreadRow_apply, spreadCol_apply]
  simp only [shapeCast_self, truncf_apply, tanh_apply, cos_apply, mulf_apply, addf_apply, subf_apply, select_apply, cmpf_apply,
    broadcast_apply, spreadRow_apply, spreadCol_apply]
  rfl

end Cert.KernelIdeal.Filter

end
-- ==== Proof.K0Val.lean ====
/-
  The first kernel's output array after its run. At grid point `t` the kernel reads rows `16000 t … 16000 t + 15999` of
  the edge-length column and the four weight arrays whole, and writes back the same rows of its output; so what point
  `t` writes is block `t` of ONE array, `Spec.filterSums` of the arguments, and the hundred blocks tile the
  1600000 rows.
-/
import proofs.«108108_j47974784696341_1_alg».proof.Proof.Gen.KernelIdeal.Frame
import proofs.«108108_j47974784696341_1_alg».proof.Proof.KPay0
import Idealize.ShloMosaic.Lib.Pipeline.Value
import Idealize.ShloMosaic.Lib.ValueIdx

set_option maxRecDepth 16384

noncomputable section

namespace Cert.KernelIdeal.Filter

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the edge-length window and the output window sit at block row `t`, the four
    weight windows at the one block they have. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `y` of the edge-length block at point `t` is row `16000 t + y` of the column. -/
theorem lenBlock_apply (c : Dev nD) (t : Fin cfg0.N) (y : S16000x1.Idx) (i : S1600000x1.Idx)
    (h0 : (i 0).val = 16000 * t.val + (y 0).val) (h1 : (i 1).val = (y 1).val) :
    (iblk0 V c 0 t : Vec Ideal S16000x1 .f32) y = (V c main_v4 : S1600000x1.Idx → Elt Ideal .f32) i := by
  obtain ⟨e0, e1, -⟩ := idx_facts t
  unfold iblk0
  rw [View.read_apply]
  show V c main_v4 _ = V c main_v4 _
  congr 1
  funext a
  apply Fin.ext
  match a with
  | ⟨0, _⟩ => show win0_0.index t 0 * 16000 + 1 * (y 0).val = (i 0).val; rw [e0, h0]; omega
  | ⟨1, _⟩ => show win0_0.index t 1 * 1 + 1 * (y 1).val = (i 1).val; rw [e1, h1]; omega

/-- Each weight window's one block is its whole array. -/
theorem wBlock1 (c : Dev nD) (t : Fin cfg0.N) : (iblk0 V c 1 t : Vec Ideal S1x64 .f32) = (V c main_arg4 : S1x64.Idx → Elt Ideal .f32) := by
  obtain ⟨-, -, -, -, e0, e1, -⟩ := idx_facts t
  funext y
  unfold iblk0
  rw [View.read_apply]
  show V c main_arg4 _ = V c main_arg4 _
  congr 1
  funext a
  apply Fin.ext
  match a with
  | ⟨0, _⟩ => show win0_1.index t 0 * 1 + 1 * (y 0).val = (y 0).val; rw [e0]; omega
  | ⟨1, _⟩ => show win0_1.index t 1 * 64 + 1 * (y 1).val = (y 1).val; rw [e1]; omega
theorem wBlock2 (c : Dev nD) (t : Fin cfg0.N) : (iblk0 V c 2 t : Vec Ideal S1x64 .f32) = (V c main_v5 : S1x64.Idx → Elt Ideal .f32) := by
  obtain ⟨-, -, -, -, -, -, e0, e1, -⟩ := idx_facts t
  funext y
  unfold iblk0
  rw [View.read_apply]
  show V c main_v5 _ = V c main_v5 _
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega
theorem wBlock3 (c : Dev nD) (t : Fin cfg0.N) : (iblk0 V c 3 t : Vec Ideal S64x64 .f32) = (V c main_arg6 : S64x64.Idx → Elt Ideal .f32) := by
  obtain ⟨-, -, -, -, -, -, -, -, e0, e1, -⟩ := idx_facts t
  funext y
  unfold iblk0
  rw [View.read_apply]
  show V c main_arg6 _ = V c main_arg6 _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega
theorem wBlock4 (c : Dev nD) (t : Fin cfg0.N) : (iblk0 V c 4 t : Vec Ideal S1x64 .f32) = (V c main_v6 : S1x64.Idx → Elt Ideal .f32) := by
  obtain ⟨-, -, -, -, -, -, -, -, -, -, e0, e1⟩ := idx_facts t
  funext y
  unfold iblk0
  rw [View.read_apply]
  show V c main_v6 _ = V c main_v6 _
  congr 1
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega

section Final

variable (c : Dev nD)
  (ew : (⟨1, ![1600000]⟩ : Shape).Idx → EReal) (wf1 : (⟨2, ![1, 64]⟩ : Shape).Idx → EReal)
  (bf1 : (⟨1, ![64]⟩ : Shape).Idx → EReal) (wf2 : (⟨2, ![64, 64]⟩ : Shape).Idx → EReal) (bf2 : (⟨1, ![64]⟩ : Shape).Idx → EReal)
  (h_ew : ∀ (e : Fin 1600000) (q : Fin 1), (V c main_v4 : S1600000x1.Idx → Elt Ideal .f32) (ix2 e q) = ew (ix1 e))
  (h_wf1 : ∀ k : Fin 64, (V c main_arg4 : S1x64.Idx → Elt Ideal .f32) (ix2 (0 : Fin 1) k) = wf1 (ix2 (0 : Fin 1) k))
  (h_bf1 : ∀ k : Fin 64, (V c main_v5 : S1x64.Idx → Elt Ideal .f32) (ix2 (0 : Fin 1) k) = bf1 (ix1 k))
  (h_wf2 : ∀ k f : Fin 64, (V c main_arg6 : S64x64.Idx → Elt Ideal .f32) (ix2 k f) = wf2 (ix2 k f))
  (h_bf2 : ∀ f : Fin 64, (V c main_v6 : S1x64.Idx → Elt Ideal .f32) (ix2 (0 : Fin 1) f) = bf2 (ix1 f))

include h_ew h_wf1 h_bf1 h_wf2 h_bf2

/-- WHAT POINT `t` WRITES BACK is block `t` of `Spec.filterSums` of the arguments. -/
theorem flushed_eq (t : Fin cfg0.N) :
    (dat0 V c).flushed 5 t = ((cfg0.win 5).blk t).view.read (Elt Ideal) (Spec.filterSums ew wf1 bf1 wf2 bf2) := by
  obtain ⟨-, -, e0, e1, -⟩ := idx_facts t
  show (cfg0.win 5).cut (grid0.coords t) ((dat0 V c).after 5 t) = _
  rw [after0_5]
  unfold out0_5
  rw [View.canon_unit_zero hz]
  simp only [View.ld_unit_zero (S := S16000x1) hz, View.ld_unit_zero (S := S1x64) hz, View.ld_unit_zero (S := S64x64) hz]
  rw [wBlock1, wBlock2, wBlock3, wBlock4]
  funext y
  obtain ⟨p, q, rfl⟩ : ∃ (p : Fin 16000) (q : Fin 1), y = ix2 p q := ⟨y 0, y 1, eq_ix2 y⟩
  show k0_pay1 (iblk0 V c 0 t) (V c main_arg4) (V c main_v5) (V c main_arg6) (V c main_v6) (ix2 p q)
    = Spec.filterSums ew wf1 bf1 wf2 bf2 (((cfg0.win 5).blk t).view.emb (ix2 p q))
  rw [pay_apply]
  have hq : q.val = 0 := by have := q.isLt; omega
  have hrow : 16000 * t.val + p.val < 1600000 := by
    have ht : t.val < 100 := Nat.lt_of_lt_of_eq t.isLt N_0
    have := p.isLt; omega
  have hlen : (iblk0 V c 0 t : Vec Ideal S16000x1 .f32) (ix2 p (0 : Fin 1)) = ew (ix1 (⟨16000 * t.val + p.val, hrow⟩ : Fin 1600000)) :=
    (lenBlock_apply V c t (ix2 p (0 : Fin 1)) (ix2 (⟨16000 * t.val + p.val, hrow⟩ : Fin 1600000) (0 : Fin 1)) rfl rfl).trans (h_ew _ _)
  rw [hlen]
  simp only [h_wf1, h_bf1, h_wf2, h_bf2]
  unfold Spec.filterSums
  refine congrArg (fun a => Spec.edgeFilter (ew a) _ _ _ _) ?_
  funext a
  apply Fin.ext
  match a with
  | ⟨0, _⟩ => show 16000 * t.val + p.val = win0_5.index t 0 * 16000 + 1 * p.val; rw [e0]; omega

/-- Every row of the output is in the block of the point `row / 16000`. -/
theorem cover (i : S1600000x1.Idx) : ∃ t : Fin cfg0.N, (cfg0.win 5).flush t = true ∧ i ∈ ((cfg0.win 5).blk t).view.set := by
  have hi0 : (i 0).val < 1600000 := (i 0).isLt
  have hi1 : (i 1).val < 1 := (i 1).isLt
  have hN : cfg0.N = 100 := N_0
  have hlt : (i 0).val / 16000 < cfg0.N := by rw [hN]; omega
  obtain ⟨-, -, e0, e1, -⟩ := idx_facts ⟨(i 0).val / 16000, hlt⟩
  refine ⟨⟨(i 0).val / 16000, hlt⟩, flush0_5 _, ?_⟩
  show i ∈ ((View.whole main_v7).slice (win0_5.rect ⟨(i 0).val / 16000, hlt⟩)).set
  rw [View.set_slice_whole, Rect.mem_set_unit]
  intro a
  match a with
  | ⟨0, _⟩ =>
    show win0_5.index ⟨(i 0).val / 16000, hlt⟩ 0 * 16000 ≤ (i 0).val ∧ (i 0).val < win0_5.index ⟨(i 0).val / 16000, hlt⟩ 0 * 16000 + 16000
    rw [e0]; dsimp only; omega
  | ⟨1, _⟩ =>
    show win0_5.index ⟨(i 0).val / 16000, hlt⟩ 1 * 1 ≤ (i 1).val ∧ (i 1).val < win0_5.index ⟨(i 0).val / 16000, hlt⟩ 1 * 1 + 1
    rw [e1]; omega

/-- THE ARRAY after the run: `Spec.filterSums` of the arguments. -/
theorem final : (dat0 V c).arrAt 5 cfg0.N = Spec.filterSums ew wf1 bf1 wf2 bf2 :=
  (dat0 V c).arrAt_eq_of_cover 5 (Spec.filterSums ew wf1 bf1 wf2 bf2)
    (fun t _ => flushed_eq V c ew wf1 bf1 wf2 bf2 h_ew h_wf1 h_bf1 h_wf2 h_bf2 t) (cover V c ew wf1 bf1 wf2 bf2 h_ew h_wf1 h_bf1 h_wf2 h_bf2)

end Final

end Cert.KernelIdeal.Filter

end
-- ==== Proof.KPay1.lean ====
/-
  The second kernel's body at one element. Its one store writes, at row `p` and column `j` of the block, the node's
  aggregated row through a dense layer, a softplus, a second dense layer (both matrix products into zero accumulators,
  each followed by its bias) and the inference-mode batch normalisation: `Spec.nodeUpdate` of row `p` of the block and of
  the eight parameter blocks.
-/
import proofs.«108108_j47974784696341_1_alg».proof.Proof.Gen.KernelIdeal.Skeleton
import proofs.«108108_j47974784696341_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Interaction

open Cert.KernelIdeal Cert.KernelIdeal.Gen Idealize.ShloMosaic Idealize.ShloMosaic.ValueIdx

/-! ## The matrix products' operand indices: row `p` of the left operand against column `j` of the right -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator at `(p, j)`: the sum over the 128 contracted units. -/
theorem matmul_apply {φ₁ φ₂ : FTy} (l : FVec Ideal S5000x128 φ₁) (r : FVec Ideal S128x128 φ₂) (p : Fin 5000) (j : Fin 128) :
    matmul dot_S5000x128_S128x128_S5000x128_1_0_0_1_n_n none l r (constant S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- A row [1, 128] spread over 5000 rows reads its lane. -/
theorem spreadRow_apply {α : Type} (v : S1x128.Idx → α) (h : S1x128.Broadcasts S5000x128) (p : Fin 5000) (j : Fin 128) :
    broadcastTo S5000x128 v h (ix2 p j) = v (ix2 (0 : Fin 1) j) :=
  broadcastTo_apply v h (ix2 p j) (ix2 (0 : Fin 1) j) (fun a => by
    match a with
    | ⟨0, _⟩ => show (0 : Nat) = if (1 : Nat) = 1 then 0 else p.val; rw [if_pos rfl]
    | ⟨1, _⟩ => show j.val = if (128 : Nat) = 1 then 0 else j.val; rw [if_neg (by decide)])

/-! ## The body's stored value at `(p, j)` -/

/-- The hidden activations fed to the second product, at `(p, k)`: softplus of the first layer's output. -/
theorem hidden_apply (x0 : Vec Ideal S5000x128 .f32) (x1 : Vec Ideal S128x128 .f32) (x2 : Vec Ideal S1x128 .f32)
    (x3 : Vec Ideal S128x128 .f32) (x4 : Vec Ideal S1x128 .f32) (p : Fin 5000) (j : Fin 128) :
    k1_pay2 x0 x1 x2 x3 x4 (ix2 p j)
      = (∑ k : Fin 128, Spec.softplus ((∑ l : Fin 128, x0 (ix2 p l) * x1 (ix2 l k)) + x2 (ix2 (0 : Fin 1) k)) * x3 (ix2 k j))
          + x4 (ix2 (0 : Fin 1) j) := by
  unfold k1_pay2 Spec.softplus
  rw [addf_apply, matmul_apply, spreadRow_apply]
  simp only [shapeCast_self, truncf_apply]
  refine congrArg₂ (· + ·) (Finset.sum_congr rfl fun k _ => ?_) rfl
  refine congrArg (· * x3 (ix2 k j)) ?_
  have hk : (addf (matmul dot_S5000x128_S128x128_S5000x128_1_0_0_1_n_n none (truncf .bf16 x0 bitsLt_bf16_f32 : FVec Ideal S5000x128 .bf16)
        (truncf .bf16 x1 bitsLt_bf16_f32 : FVec Ideal S128x128 .bf16) (constant S5000x128 .f32 0x00000000#32))
      (broadcastTo S5000x128 x2 broadcasts_S1x128_S5000x128) : FVec Ideal S5000x128 .f32) (ix2 p k)
        = (∑ l : Fin 128, x0 (ix2 p l) * x1 (ix2 l k)) + x2 (ix2 (0 : Fin 1) k) := by
    rw [addf_apply, matmul_apply, spreadRow_apply]
    rfl
  rw [← hk]
  rfl

/-- The stored block at `(p, j)` is `Spec.nodeUpdate` of row `p` and the parameter blocks' entries. -/
theorem pay_apply (x0 : Vec Ideal S5000x128 .f32) (x1 : Vec Ideal S128x128 .f32) (x2 : Vec Ideal S1x128 .f32)
    (x3 : Vec Ideal S128x128 .f32) (x4 x5 x6 x7 x8 : Vec Ideal S1x128 .f32) (p : Fin 5000) (j : Fin 128) :
    k1_pay1 (k1_pay2 x0 x1 x2 x3 x4) (k1_pay3 x5) (k1_pay4 x6) (k1_pay5 x7) x8 (ix2 p j)
      = Spec.nodeUpdate (fun l => x0 (ix2 p l)) (fun l k => x1 (ix2 l k)) (fun k => x2 (ix2 (0 : Fin 1) k))
          (fun k j => x3 (ix2 k j)) (fun j => x4 (ix2 (0 : Fin 1) j)) (fun j => x5 (ix2 (0 : Fin 1) j))
          (fun j => x6 (ix2 (0 : Fin 1) j)) (fun j => x7 (ix2 (0 : Fin 1) j)) (fun j => x8 (ix2 (0 : Fin 1) j)) j := by
  unfold k1_pay1 k1_pay3 k1_pay4 k1_pay5 Spec.nodeUpdate
  simp only [shapeCast_self]
  rw [addf_apply, mulf_apply, mulf_apply, subf_apply, spreadRow_apply, spreadRow_apply, spreadRow_apply, spreadRow_apply, hidden_apply]
  rfl

end Cert.KernelIdeal.Interaction

end
-- ==== Proof.K1Val.lean ====
/-
  The second kernel's output array after its run. At grid point `t` the kernel reads rows `5000 t … 5000 t + 4999` of the
  aggregated messages and the eight parameter arrays whole, and writes back the same rows of its output; so what point
  `t` writes is block `t` of ONE array, `Spec.nodeRows` of the operands, and the twenty blocks tile the 100000 rows.
-/
import proofs.«108108_j47974784696341_1_alg».proof.Proof.Gen.KernelIdeal.Frame
import proofs.«108108_j47974784696341_1_alg».proof.Proof.KPay1
import Idealize.ShloMosaic.Lib.Pipeline.Value
import Idealize.ShloMosaic.Lib.ValueIdx

set_option maxRecDepth 16384

noncomputable section

namespace Cert.KernelIdeal.Interaction

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the messages window and the output window sit at block row `t`, the eight
    parameter windows at the one block they have. -/
theorem idx_facts : ∀ t : Fin cfg1.N,
    win1_0.index t (0 : Fin 2) = t.val ∧ win1_0.index t (1 : Fin 2) = 0
    ∧ win1_9.index t (0 : Fin 2) = t.val ∧ win1_9.index t (1 : Fin 2) = 0
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Entry `y` of the messages block at point `t` is entry `(5000 t + y₀, y₁)` of the array. -/
theorem aggBlock_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v19 : S100000x128.Idx → Elt Ideal .f32) i := by
  obtain ⟨e0, e1, -⟩ := idx_facts t
  unfold iblk1
  rw [View.read_apply]
  show V c main_v19 _ = V c main_v19 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Each parameter window's one block is its whole array. -/
theorem wBlock1 (c : Dev nD) (t : Fin cfg1.N) : (iblk1 V c 1 t : Vec Ideal S128x128 .f32) = (V c main_arg8 : S128x128.Idx → Elt Ideal .f32) := by
  have e0 : win1_1.index t (0 : Fin 2) = 0 := (idx_facts t).2.2.2.2.1.1
  have e1 : win1_1.index t (1 : Fin 2) = 0 := (idx_facts t).2.2.2.2.1.2
  funext y
  unfold iblk1
  rw [View.read_apply]
  show V c main_arg8 _ = V c main_arg8 _
  congr 1
  funext a
  apply Fin.ext
  match a with
  | ⟨0, _⟩ => show win1_1.index t 0 * 128 + 1 * (y 0).val = (y 0).val; rw [e0]; omega
  | ⟨1, _⟩ => show win1_1.index t 1 * 128 + 1 * (y 1).val = (y 1).val; rw [e1]; omega
theorem wBlock2 (c : Dev nD) (t : Fin cfg1.N) : (iblk1 V c 2 t : Vec Ideal S1x128 .f32) = (V c main_v20 : S1x128.Idx → Elt Ideal .f32) := by
  have e0 : win1_2.index t (0 : Fin 2) = 0 := (idx_facts t).2.2.2.2.2.1.1
  have e1 : win1_2.index t (1 : Fin 2) = 0 := (idx_facts t).2.2.2.2.2.1.2
  funext y
  unfold iblk1
  rw [View.read_apply]
  show V c main_v20 _ = V c main_v20 _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega
theorem wBlock3 (c : Dev nD) (t : Fin cfg1.N) : (iblk1 V c 3 t : Vec Ideal S128x128 .f32) = (V c main_arg10 : S128x128.Idx → Elt Ideal .f32) := by
  have e0 : win1_3.index t (0 : Fin 2) = 0 := (idx_facts t).2.2.2.2.2.2.1.1
  have e1 : win1_3.index t (1 : Fin 2) = 0 := (idx_facts t).2.2.2.2.2.2.1.2
  funext y
  unfold iblk1
  rw [View.read_apply]
  show V c main_arg10 _ = V c main_arg10 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega
theorem wBlock4 (c : Dev nD) (t : Fin cfg1.N) : (iblk1 V c 4 t : Vec Ideal S1x128 .f32) = (V c main_v21 : S1x128.Idx → Elt Ideal .f32) := by
  have e0 : win1_4.index t (0 : Fin 2) = 0 := (idx_facts t).2.2.2.2.2.2.2.1.1
  have e1 : win1_4.index t (1 : Fin 2) = 0 := (idx_facts t).2.2.2.2.2.2.2.1.2
  funext y
  unfold iblk1
  rw [View.read_apply]
  show V c main_v21 _ = V c main_v21 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega
theorem wBlock5 (c : Dev nD) (t : Fin cfg1.N) : (iblk1 V c 5 t : Vec Ideal S1x128 .f32) = (V c main_v22 : S1x128.Idx → Elt Ideal .f32) := by
  have e0 : win1_5.index t (0 : Fin 2) = 0 := (idx_facts t).2.2.2.2.2.2.2.2.1.1
  have e1 : win1_5.index t (1 : Fin 2) = 0 := (idx_facts t).2.2.2.2.2.2.2.2.1.2
  funext y
  unfold iblk1
  rw [View.read_apply]
  show V c main_v22 _ = V c main_v22 _
  congr 1
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega
theorem wBlock6 (c : Dev nD) (t : Fin cfg1.N) : (iblk1 V c 6 t : Vec Ideal S1x128 .f32) = (V c main_v23 : S1x128.Idx → Elt Ideal .f32) := by
  have e0 : win1_6.index t (0 : Fin 2) = 0 := (idx_facts t).2.2.2.2.2.2.2.2.2.1.1
  have e1 : win1_6.index t (1 : Fin 2) = 0 := (idx_facts t).2.2.2.2.2.2.2.2.2.1.2
  funext y
  unfold iblk1
  rw [View.read_apply]
  show V c main_v23 _ = V c main_v23 _
  congr 1
  funext a
  apply Fin.ext
  match a with
  | ⟨0, _⟩ => show win1_6.index t 0 * 1 + 1 * (y 0).val = (y 0).val; rw [e0]; omega
  | ⟨1, _⟩ => show win1_6.index t 1 * 128 + 1 * (y 1).val = (y 1).val; rw [e1]; omega
theorem wBlock7 (c : Dev nD) (t : Fin cfg1.N) : (iblk1 V c 7 t : Vec Ideal S1x128 .f32) = (V c main_v24 : S1x128.Idx → Elt Ideal .f32) := by
  have e0 : win1_7.index t (0 : Fin 2) = 0 := (idx_facts t).2.2.2.2.2.2.2.2.2.2.1.1
  have e1 : win1_7.index t (1 : Fin 2) = 0 := (idx_facts t).2.2.2.2.2.2.2.2.2.2.1.2
  funext y
  unfold iblk1
  rw [View.read_apply]
  show V c main_v24 _ = V c main_v24 _
  congr 1
  funext a
  apply Fin.ext
  match a with
  | ⟨0, _⟩ => show win1_7.index t 0 * 1 + 1 * (y 0).val = (y 0).val; rw [e0]; omega
  | ⟨1, _⟩ => show win1_7.index t 1 * 128 + 1 * (y 1).val = (y 1).val; rw [e1]; omega
theorem wBlock8 (c : Dev nD) (t : Fin cfg1.N) : (iblk1 V c 8 t : Vec Ideal S1x128 .f32) = (V c main_v25 : S1x128.Idx → Elt Ideal .f32) := by
  have e0 : win1_8.index t (0 : Fin 2) = 0 := (idx_facts t).2.2.2.2.2.2.2.2.2.2.2.1
  have e1 : win1_8.index t (1 : Fin 2) = 0 := (idx_facts t).2.2.2.2.2.2.2.2.2.2.2.2
  funext y
  unfold iblk1
  rw [View.read_apply]
  show V c main_v25 _ = V c main_v25 _
  congr 1
  funext a
  apply Fin.ext
  match a with
  | ⟨0, _⟩ => show win1_8.index t 0 * 1 + 1 * (y 0).val = (y 0).val; rw [e0]; omega
  | ⟨1, _⟩ => show win1_8.index t 1 * 128 + 1 * (y 1).val = (y 1).val; rw [e1]; omega

section Final

variable (c : Dev nD)
  (agg : (⟨2, ![100000, 128]⟩ : Shape).Idx → EReal) (wi1 : (⟨2, ![128, 128]⟩ : Shape).Idx → EReal)
  (bi1 : (⟨1, ![128]⟩ : Shape).Idx → EReal) (wi2 : (⟨2, ![128, 128]⟩ : Shape).Idx → EReal)
  (bi2 gamma beta mean var : (⟨1, ![128]⟩ : Shape).Idx → EReal)
  (h_agg : ∀ (n : Fin 100000) (l : Fin 128), (V c main_v19 : S100000x128.Idx → Elt Ideal .f32) (ix2 n l) = agg (ix2 n l))
  (h_wi1 : ∀ l k : Fin 128, (V c main_arg8 : S128x128.Idx → Elt Ideal .f32) (ix2 l k) = wi1 (ix2 l k))
  (h_bi1 : ∀ k : Fin 128, (V c main_v20 : S1x128.Idx → Elt Ideal .f32) (ix2 (0 : Fin 1) k) = bi1 (ix1 k))
  (h_wi2 : ∀ k j : Fin 128, (V c main_arg10 : S128x128.Idx → Elt Ideal .f32) (ix2 k j) = wi2 (ix2 k j))
  (h_bi2 : ∀ j : Fin 128, (V c main_v21 : S1x128.Idx → Elt Ideal .f32) (ix2 (0 : Fin 1) j) = bi2 (ix1 j))
  (h_gamma : ∀ j : Fin 128, (V c main_v22 : S1x128.Idx → Elt Ideal .f32) (ix2 (0 : Fin 1) j) = gamma (ix1 j))
  (h_beta : ∀ j : Fin 128, (V c main_v23 : S1x128.Idx → Elt Ideal .f32) (ix2 (0 : Fin 1) j) = beta (ix1 j))
  (h_mean : ∀ j : Fin 128, (V c main_v24 : S1x128.Idx → Elt Ideal .f32) (ix2 (0 : Fin 1) j) = mean (ix1 j))
  (h_var : ∀ j : Fin 128, (V c main_v25 : S1x128.Idx → Elt Ideal .f32) (ix2 (0 : Fin 1) j) = var (ix1 j))

include h_agg h_wi1 h_bi1 h_wi2 h_bi2 h_gamma h_beta h_mean h_var

/-- WHAT POINT `t` WRITES BACK is block `t` of `Spec.nodeRows` of the operands. -/
theorem flushed_eq (t : Fin cfg1.N) :
    (dat1 V c).flushed 9 t = ((cfg1.win 9).blk t).view.read (Elt Ideal) (Spec.nodeRows agg wi1 bi1 wi2 bi2 gamma beta mean var) := by
  obtain ⟨-, -, e0, e1, -⟩ := idx_facts t
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  rw [wBlock1, wBlock2, wBlock3, wBlock4, wBlock5, wBlock6, wBlock7, wBlock8]
  funext y
  obtain ⟨p, j, rfl⟩ : ∃ (p : Fin 5000) (j : Fin 128), y = ix2 p j := ⟨y 0, y 1, eq_ix2 y⟩
  show k1_pay1 (k1_pay2 (iblk1 V c 0 t) (V c main_arg8) (V c main_v20) (V c main_arg10) (V c main_v21)) (k1_pay3 (V c main_v22))
      (k1_pay4 (V c main_v23)) (k1_pay5 (V c main_v24)) (V c main_v25) (ix2 p j)
    = Spec.nodeRows agg wi1 bi1 wi2 bi2 gamma beta mean var (((cfg1.win 9).blk t).view.emb (ix2 p j))
  rw [pay_apply]
  have hrow : 5000 * t.val + p.val < 100000 := by
    have ht : t.val < 20 := Nat.lt_of_lt_of_eq t.isLt N_1
    have := p.isLt; omega
  have hblk : ∀ l : Fin 128, (iblk1 V c 0 t : Vec Ideal S5000x128 .f32) (ix2 p l) = agg (ix2 (⟨5000 * t.val + p.val, hrow⟩ : Fin 100000) l) := fun l =>
    (aggBlock_apply V c t (ix2 p l) (ix2 (⟨5000 * t.val + p.val, hrow⟩ : Fin 100000) l) rfl rfl).trans (h_agg _ _)
  simp only [hblk, h_wi1, h_bi1, h_wi2, h_bi2, h_gamma, h_beta, h_mean, h_var]
  unfold Spec.nodeRows
  refine congrArg₂ (fun (a : Fin 100000) (b : Fin 128) => Spec.nodeUpdate (fun l => agg (ix2 a l)) _ _ _ _ _ _ _ _ b) ?_ ?_
  · apply Fin.ext
    show 5000 * t.val + p.val = win1_9.index t 0 * 5000 + 1 * p.val
    rw [e0]; omega
  · apply Fin.ext
    show j.val = win1_9.index t 1 * 128 + 1 * j.val
    rw [e1]; omega

/-- Every row of the output is in the block of the point `row / 5000`. -/
theorem cover (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, e0, e1, -⟩ := idx_facts ⟨(i 0).val / 5000, hlt⟩
  refine ⟨⟨(i 0).val / 5000, hlt⟩, flush1_9 _, ?_⟩
  show i ∈ ((View.whole main_v26).slice (win1_9.rect ⟨(i 0).val / 5000, hlt⟩)).set
  rw [View.set_slice_whole, Rect.mem_set_unit]
  intro a
  match a with
  | ⟨0, _⟩ =>
    show win1_9.index ⟨(i 0).val / 5000, hlt⟩ 0 * 5000 ≤ (i 0).val ∧ (i 0).val < win1_9.index ⟨(i 0).val / 5000, hlt⟩ 0 * 5000 + 5000
    rw [e0]; dsimp only; omega
  | ⟨1, _⟩ =>
    show win1_9.index ⟨(i 0).val / 5000, hlt⟩ 1 * 128 ≤ (i 1).val ∧ (i 1).val < win1_9.index ⟨(i 0).val / 5000, hlt⟩ 1 * 128 + 128
    rw [e1]; omega

/-- THE ARRAY after the run: `Spec.nodeRows` of the operands. -/
theorem final : (dat1 V c).arrAt 9 cfg1.N = Spec.nodeRows agg wi1 bi1 wi2 bi2 gamma beta mean var :=
  (dat1 V c).arrAt_eq_of_cover 9 (Spec.nodeRows agg wi1 bi1 wi2 bi2 gamma beta mean var)
    (fun t _ => flushed_eq V c agg wi1 bi1 wi2 bi2 gamma beta mean var h_agg h_wi1 h_bi1 h_wi2 h_bi2 h_gamma h_beta h_mean h_var t)
    (cover V c agg wi1 bi1 wi2 bi2 gamma beta mean var h_agg h_wi1 h_bi1 h_wi2 h_bi2 h_gamma h_beta h_mean h_var)

end Final

end Cert.KernelIdeal.Interaction

end
-- ==== Proof.KVal.lean ====
/-
  The idealized kernel's result as one function of the launch memory. The first kernel leaves `Spec.filterSums` of the
  edge lengths and the filter network's weights; the host aggregates the node features with it (`HostSide.aggregate`);
  the second kernel leaves `Spec.nodeRows` of the aggregated messages and the interaction network's parameters. Each
  kernel's operands are read back through the host's reshapes: a column [E, 1] or a row [1, n] of a vector is the vector.
-/
import proofs.«108108_j47974784696341_1_alg».proof.Proof.KRun
import proofs.«108108_j47974784696341_1_alg».proof.Proof.KHost
import proofs.«108108_j47974784696341_1_alg».proof.Proof.K0Val
import proofs.«108108_j47974784696341_1_alg».proof.Proof.K1Val

set_option maxRecDepth 16384

noncomputable section

namespace Cert.KernelIdeal.KVal

open Cert.KernelIdeal Idealize.ShloMosaic Idealize.ShloMosaic.TcCoe Idealize.ShloMosaic.ValueIdx Idealize.SL.Sem
open Cert.KernelIdeal.Gen (V1 V3 W4 dat0 dat1)

/-! ## The host's reshapes at coordinates -/

/-- A vector of 1600000 entries recast as a column reads its entry. -/
theorem col_apply {α : Type} (v : S1600000.Idx → α) (h : S1600000.ShapeCasts S1600000x1) (e : Fin 1600000) (q : Fin 1) :
    shapeCast S1600000x1 v h (ix2 e q) = v (ix1 e) :=
  shapeCast_apply v h (ix2 e q) (ix1 e) (by
    rewrite [Shape.rowMajor_val_two, Shape.rowMajor_val_one]
    have hq : q.val = 0 := by have := q.isLt; omega
    show e.val = e.val * 1 + q.val
    omega)
/-- A vector of 64 entries recast as a row reads its entry. -/
theorem row64_apply {α : Type} (v : S64.Idx → α) (h : S64.ShapeCasts S1x64) (z : Fin 1) (k : Fin 64) :
    shapeCast S1x64 v h (ix2 z k) = v (ix1 k) :=
  shapeCast_apply v h (ix2 z k) (ix1 k) (by
    rewrite [Shape.rowMajor_val_two, Shape.rowMajor_val_one]
    have hz : z.val = 0 := by have := z.isLt; omega
    show k.val = z.val * 64 + k.val
    omega)
/-- A vector of 128 entries recast as a row reads its entry. -/
theorem row128_apply {α : Type} (v : S128.Idx → α) (h : S128.ShapeCasts S1x128) (z : Fin 1) (k : Fin 128) :
    shapeCast S1x128 v h (ix2 z k) = v (ix1 k) :=
  shapeCast_apply v h (ix2 z k) (ix1 k) (by
    rewrite [Shape.rowMajor_val_two, Shape.rowMajor_val_one]
    have hz : z.val = 0 := by have := z.isLt; omega
    show k.val = z.val * 128 + k.val
    omega)

variable (m : (ℓ : Loc nD τ sig) → Buf (Elt Ideal) ℓ) (ρ : Dev nD → PrngReg)

/-! ## The two arrays -/

/-- The per-edge filter sums of the launch memory. -/
def fsum (c : Dev nD) : S1600000x1.Idx → EReal :=
  Spec.filterSums (m ((c : Thread nD τ).loc main_arg2)) (m ((c : Thread nD τ).loc main_arg4)) (m ((c : Thread nD τ).loc main_arg5)) (m ((c : Thread nD τ).loc main_arg6)) (m ((c : Thread nD τ).loc main_arg7))

/-- The result: the node update of the aggregated messages. -/
def result (c : Dev nD) : Buf (Elt Ideal) ((c : Thread nD τ).loc main_v26) :=
  Spec.nodeRows (HostSide.aggregate (m ((c : Thread nD τ).loc main_arg0)) (m ((c : Thread nD τ).loc main_arg1)) (fsum m c))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))

/-- The first kernel's output array after its run is the filter sums. -/
theorem filter_final (c : Dev nD) : (dat0 (V1 m ρ) c).arrAt 5 cfg0.N = fsum m c :=
  Filter.final (V1 m ρ) c (m ((c : Thread nD τ).loc main_arg2)) (m ((c : Thread nD τ).loc main_arg4)) (m ((c : Thread nD τ).loc main_arg5)) (m ((c : Thread nD τ).loc main_arg6)) (m ((c : Thread nD τ).loc main_arg7))
    (fun e q => by rw [HostSide.entry0_v4]; exact col_apply _ _ e q)
    (fun k => by rw [HostSide.entry0_arg4])
    (fun k => by rw [HostSide.entry0_v5]; exact row64_apply _ _ _ k)
    (fun k f => by rw [HostSide.entry0_arg6])
    (fun f => by rw [HostSide.entry0_v6]; exact row64_apply _ _ _ f)

/-- The second kernel's output array after its run is the result. -/
theorem node_final (c : Dev nD) : (dat1 (V3 m ρ) c).arrAt 9 cfg1.N = result m c :=
  Interaction.final (V3 m ρ) c (HostSide.aggregate (m ((c : Thread nD τ).loc main_arg0)) (m ((c : Thread nD τ).loc main_arg1)) (fsum m c))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (fun n l => by rw [HostSide.entry1_v19, filter_final])
    (fun l k => by rw [HostSide.entry1_arg8])
    (fun k => by rw [HostSide.entry1_v20]; exact row128_apply _ _ _ k)
    (fun k j => by rw [HostSide.entry1_arg10])
    (fun j => by rw [HostSide.entry1_v21]; exact row128_apply _ _ _ j)
    (fun j => by rw [HostSide.entry1_v22]; exact row128_apply _ _ _ j)
    (fun j => by rw [HostSide.entry1_v23]; exact row128_apply _ _ _ j)
    (fun j => by rw [HostSide.entry1_v24]; exact row128_apply _ _ _ j)
    (fun j => by rw [HostSide.entry1_v25]; exact row128_apply _ _ _ j)

/-! ## The run, read -/

/-- Every weakly fair execution of the idealized kernel ends with the result buffer at `result` and the arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans ((HostSide.exit1_v26 m ρ c).trans (node_final m ρ c)), (h c).2⟩)
    (KRun.run m ρ)

end Cert.KernelIdeal.KVal

end
-- ==== Proof.RefFilter.lean ====
/-
  The first half of the reference read at one element, stage by stage: a hidden layer whose input product contracts an
  axis of extent one, a second layer, the cosine cutoff at the angle `(a * π) / 8`, and a sum over the 64 filters from a
  zero start. That array is `Spec.filterSums` of the arguments. Each generated read-at-an-index lemma is first restated
  at an index given by its coordinates; the equation is then one pass of those restated lemmas.
-/
import proofs.«108108_j47974784696341_1_alg».proof.Proof.Gen.ReferenceIdeal.Run
import proofs.«108108_j47974784696341_1_alg».proof.Proof.Gen.ReferenceIdeal.Read
import proofs.«108108_j47974784696341_1_alg».proof.Proof.Spec

noncomputable section

open scoped BigOperators

namespace Cert.ReferenceIdeal.RefFilter

open Cert.ReferenceIdeal Cert.ReferenceIdeal.Gen Cert.ReferenceIdeal.Read Idealize.ShloMosaic Idealize.ShloMosaic.ValueIdx

/-! ## The layout and contraction stages, at coordinates -/

theorem at_v34 (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (e : Fin 1600000) (q : Fin 1) :
    val_main_v34 (F := Ideal) x2 x4 x5 x6 x7 (ix2 e q) = (val_main_v33 (F := Ideal) x2 x4 x5 x6 x7) (ix1 e) :=
  (val_main_v34_apply x2 x4 x5 x6 x7 (ix2 e q)).trans (congrArg (val_main_v33 (F := Ideal) x2 x4 x5 x6 x7) (funext fun a => Fin.ext (by match a with | ⟨0, _⟩ => rfl)))
theorem at_v33 (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (e : Fin 1600000) :
    val_main_v33 (F := Ideal) x2 x4 x5 x6 x7 (ix1 e) = Ideal.ofBits .f32 0x00000000#32 + ∑ f : Fin 64, (val_main_v32 (F := Ideal) x2 x4 x5 x6 x7) (ix2 e f) :=
  (val_main_v33_apply x2 x4 x5 x6 x7 (ix1 e)).trans (congrArg₂ (· + ·) rfl (Finset.sum_congr rfl fun k _ => congrArg (val_main_v32 (F := Ideal) x2 x4 x5 x6 x7) (funext fun a => Fin.ext (by match a with | ⟨0, _⟩ => rfl | ⟨1, _⟩ => rfl))))
theorem at_v31 (x2 : (⟨S1600000, .f32⟩ : BufTy).Contents (Elt Ideal)) (e : Fin 1600000) (f : Fin 64) :
    val_main_v31 (F := Ideal) x2 (ix2 e f) = (val_main_v30 (F := Ideal) x2) (ix2 e (0 : Fin 1)) :=
  (val_main_v31_apply x2 (ix2 e f)).trans (congrArg (val_main_v30 (F := Ideal) x2) (funext fun a => Fin.ext (by match a with | ⟨0, _⟩ => rfl | ⟨1, _⟩ => rfl)))
theorem at_v30 (x2 : (⟨S1600000, .f32⟩ : BufTy).Contents (Elt Ideal)) (e : Fin 1600000) (q : Fin 1) :
    val_main_v30 (F := Ideal) x2 (ix2 e q) = (val_main_v29 (F := Ideal) x2) (ix1 e) :=
  (val_main_v30_apply x2 (ix2 e q)).trans (congrArg (val_main_v29 (F := Ideal) x2) (funext fun a => Fin.ext (by match a with | ⟨0, _⟩ => rfl)))
theorem at_v16 (x7 : (⟨S64, .f32⟩ : BufTy).Contents (Elt Ideal)) (e : Fin 1600000) (f : Fin 64) :
    val_main_v16 (F := Ideal) x7 (ix2 e f) = (val_main_v15 (F := Ideal) x7) (ix2 (0 : Fin 1) f) :=
  (val_main_v16_apply x7 (ix2 e f)).trans (congrArg (val_main_v15 (F := Ideal) x7) (funext fun a => Fin.ext (by match a with | ⟨0, _⟩ => rfl | ⟨1, _⟩ => rfl)))
theorem at_v15 (x7 : (⟨S64, .f32⟩ : BufTy).Contents (Elt Ideal)) (z : Fin 1) (f : Fin 64) :
    val_main_v15 (F := Ideal) x7 (ix2 z f) = x7 (ix1 f) :=
  (val_main_v15_apply x7 (ix2 z f)).trans (congrArg x7 (funext fun a => Fin.ext (by match a with | ⟨0, _⟩ => rfl)))
theorem at_v14 (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (e : Fin 1600000) (f : Fin 64) :
    val_main_v14 (F := Ideal) x2 x4 x5 x6 (ix2 e f) = ∑ k : Fin 64, (val_main_v13 (F := Ideal) x2 x4 x5) (ix2 e k) * x6 (ix2 k f) :=
  (val_main_v14_apply x2 x4 x5 x6 (ix2 e f)).trans (Finset.sum_congr rfl fun k _ =>
    congrArg₂ (· * ·) (congrArg (val_main_v13 (F := Ideal) x2 x4 x5) (funext fun a => Fin.ext (by match a with | ⟨0, _⟩ => rfl | ⟨1, _⟩ => rfl))) (congrArg x6 (funext fun a => Fin.ext (by match a with | ⟨0, _⟩ => rfl | ⟨1, _⟩ => rfl))))
theorem at_v11 (x5 : (⟨S64, .f32⟩ : BufTy).Contents (Elt Ideal)) (e : Fin 1600000) (f : Fin 64) :
    val_main_v11 (F := Ideal) x5 (ix2 e f) = (val_main_v10 (F := Ideal) x5) (ix2 (0 : Fin 1) f) :=
  (val_main_v11_apply x5 (ix2 e f)).trans (congrArg (val_main_v10 (F := Ideal) x5) (funext fun a => Fin.ext (by match a with | ⟨0, _⟩ => rfl | ⟨1, _⟩ => rfl)))
theorem at_v10 (x5 : (⟨S64, .f32⟩ : BufTy).Contents (Elt Ideal)) (z : Fin 1) (f : Fin 64) :
    val_main_v10 (F := Ideal) x5 (ix2 z f) = x5 (ix1 f) :=
  (val_main_v10_apply x5 (ix2 z f)).trans (congrArg x5 (funext fun a => Fin.ext (by match a with | ⟨0, _⟩ => rfl)))
theorem at_v9 (x2 : (⟨S1600000, .f32⟩ : BufTy).Contents (Elt Ideal)) (x4 : (⟨S1x64, .f32⟩ : BufTy).Contents (Elt Ideal)) (e : Fin 1600000) (f : Fin 64) :
    val_main_v9 (F := Ideal) x2 x4 (ix2 e f) = ∑ k : Fin 1, (val_main_v8 (F := Ideal) x2) (ix2 e k) * x4 (ix2 k f) :=
  (val_main_v9_apply x2 x4 (ix2 e f)).trans (Finset.sum_congr rfl fun k _ =>
    congrArg₂ (· * ·) (congrArg (val_main_v8 (F := Ideal) x2) (funext fun a => Fin.ext (by match a with | ⟨0, _⟩ => rfl | ⟨1, _⟩ => rfl))) (congrArg x4 (funext fun a => Fin.ext (by match a with | ⟨0, _⟩ => rfl | ⟨1, _⟩ => rfl))))
theorem at_v8 (x2 : (⟨S1600000, .f32⟩ : BufTy).Contents (Elt Ideal)) (e : Fin 1600000) (q : Fin 1) :
    val_main_v8 (F := Ideal) x2 (ix2 e q) = (val_main_v7 (F := Ideal) x2) (ix1 e) :=
  (val_main_v8_apply x2 (ix2 e q)).trans (congrArg (val_main_v7 (F := Ideal) x2) (funext fun a => Fin.ext (by match a with | ⟨0, _⟩ => rfl)))

/-! ## The per-edge filter sums -/

/-- The reference's filter-sum array is `Spec.filterSums` of the arguments: the contraction over the axis of extent one
    is its one term, the sum from a zero start is the sum, and `(a * π) / 8 = a * (π / 8)`. -/
theorem ref_filter (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v34 (F := Ideal) x2 x4 x5 x6 x7 = Spec.filterSums x2 x4 x5 x6 x7 := by
  funext i
  obtain ⟨e, q, rfl⟩ : ∃ (e : Fin 1600000) (q : Fin 1), i = ix2 e q := ⟨i 0, i 1, eq_ix2 i⟩
  rw [at_v34, at_v33, Spec.ofBits_zero, zero_add, Spec.filterSums_apply]
  unfold Spec.edgeFilter Spec.cutoff
  refine Finset.sum_congr rfl fun f _ => ?_
  simp only [val_main_v32_apply, val_main_v17_apply, val_main_v13_apply, val_main_v12_apply, val_main_v7_apply, val_main_v5_apply, val_main_v4_apply, val_main_cst_apply, val_main_v6_apply, val_main_cst_0_apply, val_main_v29_apply, val_main_v28_apply, val_main_v27_apply, val_main_cst_5_apply, val_main_v26_apply, val_main_v25_apply, val_main_cst_4_apply, val_main_v24_apply, val_main_v23_apply, val_main_cst_3_apply, val_main_v22_apply, val_main_v21_apply, val_main_v20_apply, val_main_cst_2_apply, val_main_v19_apply, val_main_v18_apply, val_main_cst_1_apply, val_main_call0_v1_apply, val_main_call0_v0_apply, val_main_cst_6_apply, at_v14, at_v16, at_v15, at_v11, at_v10, at_v9, at_v8, at_v31, at_v30,
    Fin.sum_univ_one, Ideal.ofBits_def, Ideal.addf_def, Ideal.subf_def, Ideal.mulf_def, Ideal.maximumf_def, Ideal.hostDivf_def, Ideal.hostUnary_tanh_def, Ideal.hostUnary_cos_def, Ideal.hostUnary_exp_def, Ideal.hostUnary_log1p_def, Ideal.hostUnary_rsqrt_def, Ideal.hostNegf_def, Ideal.hostAbsf_def, Ideal.negf_def, Spec.angle_eq, Spec.cmpf_eq]

end Cert.ReferenceIdeal.RefFilter

end
-- ==== Proof.RefNode.lean ====
/-
  The second half of the reference read at one element, stage by stage, from the aggregated messages on: a dense layer,
  the softplus as the source spells it, a second dense layer and the inference-mode batch normalisation. That array is
  `Spec.nodeRows` of the aggregated messages and the parameters. The aggregated messages stay one opaque array throughout.
-/
import proofs.«108108_j47974784696341_1_alg».proof.Proof.Gen.ReferenceIdeal.Run
import proofs.«108108_j47974784696341_1_alg».proof.Proof.Gen.ReferenceIdeal.Read
import proofs.«108108_j47974784696341_1_alg».proof.Proof.Spec

noncomputable section

open scoped BigOperators

namespace Cert.ReferenceIdeal.RefNode

open Cert.ReferenceIdeal Cert.ReferenceIdeal.Gen Cert.ReferenceIdeal.Read Idealize.ShloMosaic Idealize.ShloMosaic.ValueIdx

/-! ## The layout and contraction stages, at coordinates -/

theorem at_v69 (x13 : (⟨S128, .f32⟩ : BufTy).Contents (Elt Ideal)) (n : Fin 100000) (j : Fin 128) :
    val_main_v69 (F := Ideal) x13 (ix2 n j) = (val_main_v68 (F := Ideal) x13) (ix2 (0 : Fin 1) j) :=
  (val_main_v69_apply x13 (ix2 n j)).trans (congrArg (val_main_v68 (F := Ideal) x13) (funext fun a => Fin.ext (by match a with | ⟨0, _⟩ => rfl | ⟨1, _⟩ => rfl)))
theorem at_v68 (x13 : (⟨S128, .f32⟩ : BufTy).Contents (Elt Ideal)) (z : Fin 1) (j : Fin 128) :
    val_main_v68 (F := Ideal) x13 (ix2 z j) = x13 (ix1 j) :=
  (val_main_v68_apply x13 (ix2 z j)).trans (congrArg x13 (funext fun a => Fin.ext (by match a with | ⟨0, _⟩ => rfl)))
theorem at_v66 (x15 : (⟨S128, .f32⟩ : BufTy).Contents (Elt Ideal)) (n : Fin 100000) (j : Fin 128) :
    val_main_v66 (F := Ideal) x15 (ix2 n j) = (val_main_v65 (F := Ideal) x15) (ix2 (0 : Fin 1) j) :=
  (val_main_v66_apply x15 (ix2 n j)).trans (congrArg (val_main_v65 (F := Ideal) x15) (funext fun a => Fin.ext (by match a with | ⟨0, _⟩ => rfl | ⟨1, _⟩ => rfl)))
theorem at_v65 (x15 : (⟨S128, .f32⟩ : BufTy).Contents (Elt Ideal)) (z : Fin 1) (j : Fin 128) :
    val_main_v65 (F := Ideal) x15 (ix2 z j) = (val_main_v64 (F := Ideal) x15) (ix1 j) :=
  (val_main_v65_apply x15 (ix2 z j)).trans (congrArg (val_main_v64 (F := Ideal) x15) (funext fun a => Fin.ext (by match a with | ⟨0, _⟩ => rfl)))
theorem at_v60 (x12 : (⟨S128, .f32⟩ : BufTy).Contents (Elt Ideal)) (n : Fin 100000) (j : Fin 128) :
    val_main_v60 (F := Ideal) x12 (ix2 n j) = (val_main_v59 (F := Ideal) x12) (ix2 (0 : Fin 1) j) :=
  (val_main_v60_apply x12 (ix2 n j)).trans (congrArg (val_main_v59 (F := Ideal) x12) (funext fun a => Fin.ext (by match a with | ⟨0, _⟩ => rfl | ⟨1, _⟩ => rfl)))
theorem at_v59 (x12 : (⟨S128, .f32⟩ : BufTy).Contents (Elt Ideal)) (z : Fin 1) (j : Fin 128) :
    val_main_v59 (F := Ideal) x12 (ix2 z j) = x12 (ix1 j) :=
  (val_main_v59_apply x12 (ix2 z j)).trans (congrArg x12 (funext fun a => Fin.ext (by match a with | ⟨0, _⟩ => rfl)))
theorem at_v57 (x14 : (⟨S128, .f32⟩ : BufTy).Contents (Elt Ideal)) (n : Fin 100000) (j : Fin 128) :
    val_main_v57 (F := Ideal) x14 (ix2 n j) = (val_main_v56 (F := Ideal) x14) (ix2 (0 : Fin 1) j) :=
  (val_main_v57_apply x14 (ix2 n j)).trans (congrArg (val_main_v56 (F := Ideal) x14) (funext fun a => Fin.ext (by match a with | ⟨0, _⟩ => rfl | ⟨1, _⟩ => rfl)))
theorem at_v56 (x14 : (⟨S128, .f32⟩ : BufTy).Contents (Elt Ideal)) (z : Fin 1) (j : Fin 128) :
    val_main_v56 (F := Ideal) x14 (ix2 z j) = x14 (ix1 j) :=
  (val_main_v56_apply x14 (ix2 z j)).trans (congrArg x14 (funext fun a => Fin.ext (by match a with | ⟨0, _⟩ => rfl)))
theorem at_v54 (x11 : (⟨S128, .f32⟩ : BufTy).Contents (Elt Ideal)) (n : Fin 100000) (j : Fin 128) :
    val_main_v54 (F := Ideal) x11 (ix2 n j) = (val_main_v53 (F := Ideal) x11) (ix2 (0 : Fin 1) j) :=
  (val_main_v54_apply x11 (ix2 n j)).trans (congrArg (val_main_v53 (F := Ideal) x11) (funext fun a => Fin.ext (by match a with | ⟨0, _⟩ => rfl | ⟨1, _⟩ => rfl)))
theorem at_v53 (x11 : (⟨S128, .f32⟩ : BufTy).Contents (Elt Ideal)) (z : Fin 1) (j : Fin 128) :
    val_main_v53 (F := Ideal) x11 (ix2 z j) = x11 (ix1 j) :=
  (val_main_v53_apply x11 (ix2 z j)).trans (congrArg x11 (funext fun a => Fin.ext (by match a with | ⟨0, _⟩ => rfl)))
theorem at_v52 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (n : Fin 100000) (j : Fin 128) :
    val_main_v52 (F := Ideal) x0 x1 x2 x4 x5 x6 x7 x8 x9 x10 (ix2 n j) = ∑ k : Fin 128, (val_main_v51 (F := Ideal) x0 x1 x2 x4 x5 x6 x7 x8 x9) (ix2 n k) * x10 (ix2 k j) :=
  (val_main_v52_apply x0 x1 x2 x4 x5 x6 x7 x8 x9 x10 (ix2 n j)).trans (Finset.sum_congr rfl fun k _ =>
    congrArg₂ (· * ·) (congrArg (val_main_v51 (F := Ideal) x0 x1 x2 x4 x5 x6 x7 x8 x9) (funext fun a => Fin.ext (by match a with | ⟨0, _⟩ => rfl | ⟨1, _⟩ => rfl))) (congrArg x10 (funext fun a => Fin.ext (by match a with | ⟨0, _⟩ => rfl | ⟨1, _⟩ => rfl))))
theorem at_v49 (x9 : (⟨S128, .f32⟩ : BufTy).Contents (Elt Ideal)) (n : Fin 100000) (j : Fin 128) :
    val_main_v49 (F := Ideal) x9 (ix2 n j) = (val_main_v48 (F := Ideal) x9) (ix2 (0 : Fin 1) j) :=
  (val_main_v49_apply x9 (ix2 n j)).trans (congrArg (val_main_v48 (F := Ideal) x9) (funext fun a => Fin.ext (by match a with | ⟨0, _⟩ => rfl | ⟨1, _⟩ => rfl)))
theorem at_v48 (x9 : (⟨S128, .f32⟩ : BufTy).Contents (Elt Ideal)) (z : Fin 1) (j : Fin 128) :
    val_main_v48 (F := Ideal) x9 (ix2 z j) = x9 (ix1 j) :=
  (val_main_v48_apply x9 (ix2 z j)).trans (congrArg x9 (funext fun a => Fin.ext (by match a with | ⟨0, _⟩ => rfl)))
theorem at_v47 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x128, .f32⟩ : BufTy).Contents (Elt Ideal)) (n : Fin 100000) (j : Fin 128) :
    val_main_v47 (F := Ideal) x0 x1 x2 x4 x5 x6 x7 x8 (ix2 n j) = ∑ k : Fin 128, (val_main_v46 (F := Ideal) x0 x1 x2 x4 x5 x6 x7) (ix2 n k) * x8 (ix2 k j) :=
  (val_main_v47_apply x0 x1 x2 x4 x5 x6 x7 x8 (ix2 n j)).trans (Finset.sum_congr rfl fun k _ =>
    congrArg₂ (· * ·) (congrArg (val_main_v46 (F := Ideal) x0 x1 x2 x4 x5 x6 x7) (funext fun a => Fin.ext (by match a with | ⟨0, _⟩ => rfl | ⟨1, _⟩ => rfl))) (congrArg x8 (funext fun a => Fin.ext (by match a with | ⟨0, _⟩ => rfl | ⟨1, _⟩ => rfl))))

/-! ## The node update from the aggregated messages -/

/-- The first dense layer's output at `(n, k)`: the node's aggregated row against column `k` of the weights, plus the bias. -/
theorem ref_pre (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (n : Fin 100000) (k : Fin 128) :
    val_main_v50 (F := Ideal) x0 x1 x2 x4 x5 x6 x7 x8 x9 (ix2 n k) = (∑ l : Fin 128, (val_main_v46 (F := Ideal) x0 x1 x2 x4 x5 x6 x7) (ix2 n l) * x8 (ix2 l k)) + x9 (ix1 k) := by
  rw [val_main_v50_apply, at_v47, at_v49, at_v48]
  rfl

/-- The host's spelling of the softplus at one value `h`, its three zero splats given by name, is `Spec.softplus h`: the
    host negates the absolute value where the kernel subtracts it from zero, and tests "unordered or different" where
    the kernel tests "ordered and different"; no extended real differs from itself either way. -/
theorem softplus_host (h z0 z2 z5 : EReal) (hz0 : z0 = Ideal.ofBits .f32 0x00000000#32) (hz2 : z2 = Ideal.ofBits .f32 0x00000000#32) (hz5 : z5 = Ideal.ofBits .f32 0x00000000#32) :
    Scalar.select (FloatOps.cmpf (F := Ideal) (φ := .f32) .une (FloatOps.subf (F := Ideal) (φ := .f32) h z2) (FloatOps.subf (F := Ideal) (φ := .f32) h z2))
      (FloatOps.addf (F := Ideal) (φ := .f32) h z5)
      (FloatOps.addf (F := Ideal) (φ := .f32) (FloatOps.maximumf (F := Ideal) (φ := .f32) h z0)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) h z2))))))
      = Spec.softplus h := by
  subst hz0 hz2 hz5
  unfold Spec.softplus
  rw [Spec.zero_sub']
  rfl

/-- One hidden unit after the softplus, from the first dense layer's output at that unit. -/
theorem ref_hidden (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (i : S100000x128.Idx) :
    val_main_v51 (F := Ideal) x0 x1 x2 x4 x5 x6 x7 x8 x9 i = Spec.softplus (val_main_v50 (F := Ideal) x0 x1 x2 x4 x5 x6 x7 x8 x9 i) := by
  rw [val_main_v51_apply, val_main_call1_v4_apply, val_main_call1_v6_apply, val_main_call1_v11_apply,
    val_main_call1_v1_apply, val_main_call1_v10_apply, val_main_call1_v9_apply, val_main_call1_v8_apply,
    val_main_call1_v7_apply, val_main_call1_v3_apply]
  exact softplus_host _ _ _ _ ((val_main_call1_v0_apply (F := Ideal) i).trans rfl)
    ((val_main_call1_v2_apply (F := Ideal) i).trans rfl) ((val_main_call1_v5_apply (F := Ideal) i).trans rfl)

/-- The batch normalisation at one entry, in the host's spelling: scale, centred value, inverse root of the shifted
    variance, shift. -/
theorem norm_host (s g b m v bt : EReal) :
    FloatOps.addf (F := Ideal) (φ := .f32) (FloatOps.mulf (F := Ideal) (φ := .f32) (FloatOps.mulf (F := Ideal) (φ := .f32) g (FloatOps.subf (F := Ideal) (φ := .f32) (FloatOps.addf (F := Ideal) (φ := .f32) s b) m))
        (FloatOps.hostUnary (F := Ideal) (φ := .f32) .rsqrt (FloatOps.addf (F := Ideal) (φ := .f32) v (FloatOps.ofBits (F := Ideal) .f32 0x3A83126F#32)))) bt
      = g * (s + b - m) * Ideal.rsqrt (v + Ideal.ofBits .f32 0x3A83126F#32) + bt := rfl

/-- The reference's result is `Spec.nodeRows` of its aggregated-messages array and the parameters. -/
theorem ref_node (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 x12 x13 x14 x15 : (⟨S128, .f32⟩ : BufTy).Contents (Elt Ideal)) :
    val_main_v70 (F := Ideal) x0 x1 x2 x4 x5 x6 x7 x8 x9 x10 x11 x12 x13 x14 x15 = Spec.nodeRows (val_main_v46 (F := Ideal) x0 x1 x2 x4 x5 x6 x7) x8 x9 x10 x11 x12 x13 x14 x15 := by
  funext i
  obtain ⟨n, j, rfl⟩ : ∃ (n : Fin 100000) (j : Fin 128), i = ix2 n j := ⟨i 0, i 1, eq_ix2 i⟩
  rw [Spec.nodeRows_apply]
  unfold Spec.nodeUpdate
  have hsum : (∑ k : Fin 128, (val_main_v51 (F := Ideal) x0 x1 x2 x4 x5 x6 x7 x8 x9) (ix2 n k) * x10 (ix2 k j)) = ∑ k : Fin 128, Spec.softplus ((∑ l : Fin 128, (val_main_v46 (F := Ideal) x0 x1 x2 x4 x5 x6 x7) (ix2 n l) * x8 (ix2 l k)) + x9 (ix1 k)) * x10 (ix2 k j) :=
    Finset.sum_congr rfl fun k _ => by rw [ref_hidden, ref_pre]
  rw [val_main_v70_apply, val_main_v67_apply, val_main_v61_apply, val_main_v58_apply, val_main_v55_apply, at_v52, hsum,
    at_v69, at_v68, at_v66, at_v65, val_main_v64_apply, val_main_v63_apply, val_main_v62_apply, val_main_cst_10_apply,
    at_v60, at_v59, at_v57, at_v56, at_v54, at_v53]
  exact norm_host _ _ _ _ _ _

end Cert.ReferenceIdeal.RefNode

end
-- ==== Proof.lean ====
/-
  The certificate of a message-passing interaction block against its reference, over the extended reals.

  The program: per edge, a filter network on the edge length (a hidden layer of 64 tanh units on the length rescaled to
  [-1, 1], a 64 × 64 linear layer) whose 64 outputs are each scaled by a cosine cutoff and summed; each edge's source
  node row scaled by that sum and added into the edge's target node; per node, two 128 × 128 dense layers with a softplus
  between them and an inference-mode batch normalisation. The kernel computes the per-edge sums and the per-node update in
  two pipelined kernels, 16000 edges and 5000 nodes at a time, with the gather and the scatter-add on the host between
  them; the reference computes everything on the host.

  Where the two differ, and why they agree on the extended reals:
  * the kernel's hidden layer multiplies the rescaled length by the weight row, the reference contracts an axis of extent
    one: a sum of one term;
  * the kernel's matrix products run into zero accumulators block by block, the reference's over the whole arrays: the
    same sums, row by row;
  * the kernel's cutoff angle is `a * c` with `c` the float nearest π/8, the reference's `(a * p) / 8` with `p` the float
    nearest π: `c = p / 8` exactly (a division by a power of two), and multiplication is associative;
  * the softplus's unreachable branch tests "ordered and different" in one and "unordered or different" in the other (no
    extended real differs from itself), and `0 - |d|` in one is `-|d|` in the other.
  Nothing uses that the inputs are finite. The gather and the scatter-add are the same host operations in both programs
  and are never opened.
-/
import proofs.«108108_j47974784696341_1_alg».proof.Defs
import proofs.«108108_j47974784696341_1_alg».proof.Proof.Gen.Kernel
import proofs.«108108_j47974784696341_1_alg».proof.Proof.Gen.Kernel.Frame
import proofs.«108108_j47974784696341_1_alg».proof.Proof.Gen.KernelIdeal
import proofs.«108108_j47974784696341_1_alg».proof.Proof.Gen.KernelIdeal.Frame
import proofs.«108108_j47974784696341_1_alg».proof.Proof.Gen.ReferenceIdeal
import proofs.«108108_j47974784696341_1_alg».proof.Proof.Gen.ReferenceIdeal.Run
import proofs.«108108_j47974784696341_1_alg».proof.Proof.Gen.ReferenceIdeal.Read
import proofs.«108108_j47974784696341_1_alg».proof.Proof.Gen.Pre_finite_inputs
import proofs.«108108_j47974784696341_1_alg».proof.Proof.KVal
import proofs.«108108_j47974784696341_1_alg».proof.Proof.RefFilter
import proofs.«108108_j47974784696341_1_alg».proof.Proof.RefNode
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ
/-- The idealized kernel runs and keeps its arguments. -/
theorem frame_kernelIdeal : Cert.frame_KernelIdeal := fun m ρ _ => Cert.KernelIdeal.Gen.frame m ρ
/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's aggregated messages are the kernel program's host aggregation of the reference's filter sums: the
    same gather, product and scatter-add, operation for operation. -/
theorem ref_aggregate {F : FTy → Type} [FloatOps F] (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x4 : (⟨Cert.ReferenceIdeal.S1x64, .f32⟩ : BufTy).Contents (Elt F)) (x5 : (⟨Cert.ReferenceIdeal.S64, .f32⟩ : BufTy).Contents (Elt F)) (x6 : (⟨Cert.ReferenceIdeal.S64x64, .f32⟩ : BufTy).Contents (Elt F)) (x7 : (⟨Cert.ReferenceIdeal.S64, .f32⟩ : BufTy).Contents (Elt F)) :
    Cert.ReferenceIdeal.Read.val_main_v46 (F := F) x0 x1 x2 x4 x5 x6 x7
      = Cert.KernelIdeal.HostSide.aggregate x0 x1 (Cert.ReferenceIdeal.Read.val_main_v34 (F := F) x2 x4 x5 x6 x7) := rfl

/-- Both programs end with the node update of the aggregated messages: the kernel's by its two regions' arrays, the
    reference's by its run read stage by stage; on arguments that agree the two are one function. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.RefNode.ref_node, ref_aggregate, Cert.ReferenceIdeal.RefFilter.ref_filter]
  obtain ⟨h0, h1, h2, h3, h4, h5, h6, h7, h8, h9, h10, h11, h12, h13, h14, h15⟩ := hagree c
  rw [h0, h1, h2, h4, h5, h6, h7, h8, h9, h10, h11, h12, h13, h14, h15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
